-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x4096 : Shape := ⟨2, ![4096, 4096]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S1024x4096 .f32) (main_arg1 : FVec F S4096x4096 .f32) (main_arg2 : FVec F S4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S1024x4096 : Shape := ⟨2, ![1024, 4096]⟩
abbrev S4096x4096 : Shape := ⟨2, ![4096, 4096]⟩
abbrev S4096 : Shape := ⟨1, ![4096]⟩
abbrev S1x4096 : Shape := ⟨2, ![1, 4096]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S1024x4096, .f32⟩
  | .local _ .vmem, ⟨0, _⟩ => ⟨S1024x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x4096.size a
  hwx0_0 : ∀ i : grid0.Coords, EltTy.bits .f32 = 32 ∨ (Rect.block (s := S1024x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .f32 = 32 ∨ (Rect.block (s := S4096x4096) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x4096.size a
  hwx0_3 : ∀ i : grid0.Coords, EltTy.bits .f32 = 32 ∨ (Rect.block (s := S1024x4096) S1024x512.size (cc0_transform_3 i) (hinb0_3 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_arg0) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S4096x4096 : Shape := ⟨2, ![4096, 4096]⟩
abbrev S4096 : Shape := ⟨1, ![4096]⟩
abbrev S4096x1024 : Shape := ⟨2, ![4096, 1024]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1x4096, .f32⟩
  | .hbm, ⟨8, _⟩ => ⟨S1024x4096, .f32⟩
  | .hbm, ⟨9, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  transposes_S1024x4096_S4096x1024_1_0 : S1024x4096.Transposes [1, 0] S4096x1024
  transposes_S4096x4096_S4096x4096_1_0 : S4096x4096.Transposes [1, 0] S4096x4096
  transposes_S4096x1024_S1024x4096_1_0 : S4096x1024.Transposes [1, 0] S1024x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  dot_S4096x4096_S4096x1024_S4096x1024_1_0_0_1_n_n_wf : DotDims.WF S4096x4096 S4096x1024 S4096x1024 [1] [0] [0] [1] [] []

variable [Facts₀]

def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Affine.lean ====
/-
  The dense layer out = x · w + b over the extended reals, for x of 1024 rows and 4096 columns, a square weight w of
  extent 4096 stored input-major (row k of w holds the weights leaving input k) and a bias b of 4096 entries:
  entry (r, c) of the output is the sum over k of x (r, k) · w (k, c), plus b c.
-/
import Idealize.ShloMosaic.PureOps.Ideal.Laws
import Idealize.ShloMosaic.Lib.ValueIdx

noncomputable section

namespace Cert.Dense

open Idealize.ShloMosaic Idealize.ShloMosaic.ValueIdx

/-- x · w + b, entry by entry. -/
def affine (x : FVec Ideal ⟨2, ![1024, 4096]⟩ .f32) (w : FVec Ideal ⟨2, ![4096, 4096]⟩ .f32)
    (b : FVec Ideal ⟨1, ![4096]⟩ .f32) : FVec Ideal ⟨2, ![1024, 4096]⟩ .f32 :=
  fun i => (∑ k : Fin 4096, x (ix2 (i 0) k) * w (ix2 k (i 1))) + b (ix1 (i 1))

theorem affine_apply (x : FVec Ideal ⟨2, ![1024, 4096]⟩ .f32) (w : FVec Ideal ⟨2, ![4096, 4096]⟩ .f32)
    (b : FVec Ideal ⟨1, ![4096]⟩ .f32) (r : Fin 1024) (c : Fin 4096) :
    affine x w b (ix2 r c) = (∑ k : Fin 4096, x (ix2 r k) * w (ix2 k c)) + b (ix1 c) := rfl

end Cert.Dense

end
-- ==== Proof.Reference.lean ====
/-
  The reference computes x · w + b by way of transposes: it forms wᵀ · xᵀ, whose entry (c, r) is the sum over k of
  wᵀ (c, k) · xᵀ (k, r) = w (k, c) · x (r, k), transposes the product back, so that entry (r, c) is that sum, and adds
  the bias laid along the columns through a one-row array. Each factor pair is the pair of x · w with its factors
  exchanged, and the product of two extended reals does not depend on their order; so the two sums agree term by term.
-/
import Idealize.ShloMosaic.PureOps.Ideal.Laws
import Idealize.ShloMosaic.Lib.ValueIdx
import proofs.«123385_g51737176048517_cont_8to1_c_1095_3_alg».proof.Proof.Affine
import proofs.«123385_g51737176048517_cont_8to1_c_1095_3_alg».proof.Proof.Gen.ReferenceIdeal.Read

noncomputable section

namespace Cert.Dense

open Idealize.ShloMosaic Idealize.ShloMosaic.ValueIdx
open Cert.ReferenceIdeal Cert.ReferenceIdeal.Read

/-- Entry (c, k) of wᵀ, met in the product at output entry (r, c), is entry (k, c) of w. -/
theorem weight_index (r : Fin 1024) (c : Fin 4096) (k : Fin 4096) :
    idx_main_v1 (lidx_main_v2 (idx_main_v3 (ix2 r c)) k) = ix2 k c :=
  funext fun a => Fin.ext (by match a with | ⟨0, _⟩ => rfl | ⟨1, _⟩ => rfl)

/-- Entry (k, r) of xᵀ, met in the product at output entry (r, c), is entry (r, k) of x. -/
theorem input_index (r : Fin 1024) (c : Fin 4096) (k : Fin 4096) :
    idx_main_v0 (ridx_main_v2 (idx_main_v3 (ix2 r c)) k) = ix2 r k :=
  funext fun a => Fin.ext (by match a with | ⟨0, _⟩ => rfl | ⟨1, _⟩ => rfl)

/-- The bias read at output entry (r, c), through the one-row array, is b c. -/
theorem bias_index (r : Fin 1024) (c : Fin 4096) : idx_main_v4 (idx_main_v5 (ix2 r c)) = ix1 c :=
  funext fun a => Fin.ext (by match a with | ⟨0, _⟩ => rfl)

/-- The reference's result is x · w + b. -/
theorem reference_eq (x : FVec Ideal ⟨2, ![1024, 4096]⟩ .f32) (w : FVec Ideal ⟨2, ![4096, 4096]⟩ .f32)
    (b : FVec Ideal ⟨1, ![4096]⟩ .f32) : val_main_v6 (F := Ideal) x w b = affine x w b := by
  funext i
  obtain ⟨r, c, rfl⟩ : ∃ (r : Fin 1024) (c : Fin 4096), i = ix2 r c := ⟨i 0, i 1, eq_ix2 i⟩
  rw [val_main_v6_apply, val_main_v3_apply, val_main_v2_apply, val_main_v5_apply, val_main_v4_apply, affine_apply,
    bias_index]
  simp only [val_main_v1_apply, val_main_v0_apply, weight_index, input_index]
  show (∑ k : Fin 4096, w (ix2 k c) * x (ix2 r k)) + b (ix1 c) = _
  exact congrArg (· + b (ix1 c)) (Finset.sum_congr rfl fun k _ => mul_comm _ _)

end Cert.Dense

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.Block.lean ====
/-
  One call of the kernel body computes, from a block of 1024 rows of x, a block of 512 columns of w and the matching
  512 entries of the bias row, the block product plus the bias: entry (r, q) of what it stores is the sum over k of
  xblock (r, k) · wblock (k, q), plus biasblock (0, q). The operands are narrowed to bf16 before the product, which
  changes nothing on the extended reals; the product runs into a zero accumulator; the bias row is spread down the
  1024 rows before the sum.
-/
import Idealize.ShloMosaic.PureOps.Ideal.Laws
import Idealize.ShloMosaic.Lib.ValueIdx
import Idealize.ShloMosaic.Lib.ValueLayout
import Idealize.ShloMosaic.Lib.Pipeline.Value
import proofs.«123385_g51737176048517_cont_8to1_c_1095_3_alg».proof.Proof.LibDotSum
import proofs.«123385_g51737176048517_cont_8to1_c_1095_3_alg».proof.Proof.Gen.KernelIdeal.Skeleton

noncomputable section

namespace Cert.Dense

open Idealize.ShloMosaic Idealize.ShloMosaic.ValueIdx
open Cert.KernelIdeal Cert.KernelIdeal.Gen

/-- The stored value at (r, q) of the output block. -/
theorem payload_apply (x0 : FVec Ideal S1024x4096 .f32) (x1 : FVec Ideal S4096x512 .f32) (x2 : FVec Ideal S1x512 .f32)
    (r : Fin 1024) (q : Fin 512) :
    k0_pay1 (F := Ideal) x0 x1 x2 (ix2 r q)
      = (∑ k : Fin 4096, x0 (ix2 r k) * x1 (ix2 k q)) + x2 (ix2 (0 : Fin 1) q) := by
  unfold k0_pay1
  refine congrArg₂ (· + ·) ?_ ?_
  · exact Cert.Lib.matmul_rc_apply dot_S1024x4096_S4096x512_S1024x512_1_0_0_1_n_n rfl rfl rfl rfl rfl rfl none _ _ r q
  · exact (broadcastTo_1b_ab_apply _ broadcasts_S1x512_S1024x512 r q).trans
      (congrFun (shapeCast_self x2 shapeCasts_S1x512_S1x512) _)

end Cert.Dense

end
-- ==== Proof.Array.lean ====
/-
  From blocks to the array. The grid has 8 points; point t takes all of x, the 512 columns of w from column 512·t on,
  the 512 entries of the bias row from entry 512·t on, and writes the 512 columns of the output from column 512·t on.
  The bias row is the bias vector recast to one row before the region, so its entry (0, j) is b j. Hence what point t
  writes back is block t of x · w + b, the 8 blocks cover the output (column j lies in block j / 512), and the output
  array ends as x · w + b.
-/
import Idealize.ShloMosaic.Lib.ValueIdx
import Idealize.ShloMosaic.Lib.ValueLayout
import Idealize.ShloMosaic.Lib.Pipeline.Value
import Idealize.ShloMosaic.Lib.StableHlo.Run
import proofs.«123385_g51737176048517_cont_8to1_c_1095_3_alg».proof.Proof.Affine
import proofs.«123385_g51737176048517_cont_8to1_c_1095_3_alg».proof.Proof.Block
import proofs.«123385_g51737176048517_cont_8to1_c_1095_3_alg».proof.Proof.Gen.KernelIdeal.Value

set_option maxRecDepth 16384

noncomputable section

namespace Cert.Dense

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Where each window's block sits at point t: x whole, and the weight's, the bias row's and the output's blocks at
    column block t. -/
theorem block_index : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The bias row the region finds is the bias vector recast to one row. -/
theorem bias_row (c : Dev nD) :
    (V m c main_call0_v0 : S1x4096.Idx → EReal)
      = shapeCast S1x4096 (m ((c : Thread nD τ).loc main_arg2)) shapeCasts_S4096_S1x4096 := by
  dsimp only [Gen.V, Gen.hostOps0]; after_results; rfl

/-- The body's stored value at index j of its block is x · w + b at the array index i with the same row and with
    column 512·n + (j's column), when the loaded blocks are x whole, columns 512·n … of w, and entries 512·n … of b. -/
theorem block_apply (X : FVec Ideal S1024x4096 .f32) (W : FVec Ideal S4096x4096 .f32) (B : FVec Ideal S4096 .f32)
    (x0 : FVec Ideal S1024x4096 .f32) (x1 : FVec Ideal S4096x512 .f32) (x2 : FVec Ideal S1x512 .f32)
    (n : Nat) (hn : n < 8)
    (h0 : ∀ (r : Fin 1024) (k : Fin 4096), x0 (ix2 r k) = X (ix2 r k))
    (h1 : ∀ (k : Fin 4096) (q : Fin 512), x1 (ix2 k q) = W (ix2 k ⟨n * 512 + q.val, by omega⟩))
    (h2 : ∀ q : Fin 512, x2 (ix2 (0 : Fin 1) q) = B (ix1 ⟨n * 512 + q.val, by omega⟩))
    (j : S1024x512.Idx) (i : S1024x4096.Idx) (hi0 : (i 0).val = (j 0).val) (hi1 : (i 1).val = n * 512 + (j 1).val) :
    k0_pay1 (F := Ideal) x0 x1 x2 j = affine X W B i := by
  obtain ⟨r, q, rfl⟩ : ∃ (r : Fin 1024) (q : Fin 512), j = ix2 r q := ⟨j 0, j 1, eq_ix2 j⟩
  obtain ⟨r', c, rfl⟩ : ∃ (r' : Fin 1024) (c : Fin 4096), i = ix2 r' c := ⟨i 0, i 1, eq_ix2 i⟩
  obtain rfl : r' = r := Fin.ext hi0
  have hq : n * 512 + q.val < 4096 := by have := q.isLt; omega
  obtain rfl : c = ⟨n * 512 + q.val, hq⟩ := Fin.ext hi1
  rw [payload_apply, affine_apply, h2]
  exact congrArg (· + B (ix1 ⟨n * 512 + q.val, hq⟩)) (Finset.sum_congr rfl fun k _ => by rw [h0, h1])

/-- What point t writes back is block t of x · w + b. -/
theorem flushed_eq (c : Dev nD) (t : Fin cfg0.N) :
    (dats m 0 c).flushed 3 t = ((cfg0.win 3).blk t).view.read (Elt Ideal)
      (affine (m ((c : Thread nD τ).loc main_arg0)) (m ((c : Thread nD τ).loc main_arg1)) (m ((c : Thread nD τ).loc main_arg2))) := by
  rw [Value.flushed3]
  unfold out0_3
  rw [View.canon_unit_zero origin]
  simp only [View.ld_unit_zero (S := S1024x4096) origin, View.ld_unit_zero (S := S4096x512) origin,
    View.ld_unit_zero (S := S1x512) origin]
  obtain ⟨e00, e01, e10, e11, e20, e21, e30, e31⟩ := block_index t
  have ht : t.val < 8 := t.isLt
  funext j
  refine block_apply (m ((c : Thread nD τ).loc main_arg0)) (m ((c : Thread nD τ).loc main_arg1)) (m ((c : Thread nD τ).loc main_arg2))
    (iblk m c 0 t) (iblk m c 1 t) (iblk m c 2 t) t.val ht ?_ ?_ ?_ j (((cfg0.win 3).blk t).view.emb j) ?_ ?_
  · intro r k
    show V m c main_arg0 (((cfg0.win 0).blk t).view.emb (ix2 r k)) = _
    refine (congrFun (V_main_arg0 m c) _).trans (congrArg _ (funext fun a => Fin.ext ?_))
    match a with
    | ⟨0, _⟩ => show win0_0.index t (0 : Fin 2) * 1024 + 1 * r.val = r.val; omega
    | ⟨1, _⟩ => show win0_0.index t (1 : Fin 2) * 4096 + 1 * k.val = k.val; omega
  · intro k q
    show V m c main_arg1 (((cfg0.win 1).blk t).view.emb (ix2 k q)) = _
    refine (congrFun (V_main_arg1 m c) _).trans (congrArg _ (funext fun a => Fin.ext ?_))
    match a with
    | ⟨0, _⟩ => show win0_1.index t (0 : Fin 2) * 4096 + 1 * k.val = k.val; omega
    | ⟨1, _⟩ => show win0_1.index t (1 : Fin 2) * 512 + 1 * q.val = t.val * 512 + q.val; omega
  · intro q
    show V m c main_call0_v0 (((cfg0.win 2).blk t).view.emb (ix2 (0 : Fin 1) q)) = _
    have e : ((cfg0.win 2).blk t).view.emb (ix2 (0 : Fin 1) q) = ix2 (0 : Fin 1) (⟨t.val * 512 + q.val, by omega⟩ : Fin 4096) :=
      funext fun a => Fin.ext (by
        match a with
        | ⟨0, _⟩ => show win0_2.index t (0 : Fin 2) * 1 + 1 * 0 = 0; omega
        | ⟨1, _⟩ => show win0_2.index t (1 : Fin 2) * 512 + 1 * q.val = t.val * 512 + q.val; omega)
    rw [e, bias_row]
    exact shapeCast_a_1a_apply _ shapeCasts_S4096_S1x4096 (0 : Fin 1) _
  · show win0_3.index t (0 : Fin 2) * 1024 + 1 * (j 0).val = (j 0).val; omega
  · show win0_3.index t (1 : Fin 2) * 512 + 1 * (j 1).val = t.val * 512 + (j 1).val; omega

/-- An index of the output lies in point t's block iff each coordinate lies in the block's range on its axis. -/
theorem mem_block (t : Fin cfg0.N) (i : S1024x4096.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v0).slice (win0_3.rect t)).set ↔ _
  rw [View.set_slice_whole, Rect.mem_set_unit]
  exact Iff.rfl

/-- Every index of the output lies in the block of the point its column selects. -/
theorem cover (i : S1024x4096.Idx) : ∃ t : Fin cfg0.N, (cfg0.win 3).flush t = true ∧ i ∈ ((cfg0.win 3).blk t).view.set := by
  have hi0 : (i 0).val < 1024 := (i 0).isLt
  have hi1 : (i 1).val < 4096 := (i 1).isLt
  have hN : cfg0.N = 8 := rfl
  let t : Fin cfg0.N := ⟨(i 1).val / 512, by omega⟩
  have htv : t.val = (i 1).val / 512 := rfl
  obtain ⟨-, -, -, -, -, -, e30, e31⟩ := block_index t
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 512 ≤ (i 1).val ∧ (i 1).val < win0_3.index t (1 : Fin 2) * 512 + 512
    omega

/-- The output array after the run is x · w + b. -/
theorem final (c : Dev nD) : (dats m 0 c).arrAt 3 cfg0.N
    = affine (m ((c : Thread nD τ).loc main_arg0)) (m ((c : Thread nD τ).loc main_arg1)) (m ((c : Thread nD τ).loc main_arg2)) :=
  (dats m 0 c).arrAt_eq_of_cover 3 _ (fun t _ => flushed_eq m c t) cover

/-- Every run of the kernel ends with the output at x · w + b and the arguments unchanged. -/
theorem kernel_run : θ_run defs (onTc (τ := τ) (main (F := Ideal))) ⟨m, fun _ => 0, ρ⟩ fun r => ∀ c : Dev nD,
      r.2.mem ((c : Thread nD τ).loc main_v0)
        = affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.Dense

end
-- ==== Proof.lean ====
/-
  The certificate of a dense layer. The kernel computes out = x · w + b for x of 1024 rows and 4096 columns, a square
  weight of extent 4096 and a bias of 4096 entries, 512 output columns per grid point: each point multiplies all of x
  (narrowed to bf16, the identity on the extended reals) by a 512-column block of w into a zero accumulator and adds the
  matching entries of the bias. The reference forms (wᵀ · xᵀ)ᵀ + b. On the extended reals both are the array whose entry
  (r, c) is the sum over k of x (r, k) · w (k, c), plus b c: the reference's terms are the kernel's with the two factors
  exchanged, and multiplication of extended reals is commutative. No finiteness of the inputs is used.
  The three programs' runs are the generated frames and the reference's generated run; the idealization rewrote no
  operation, so its conjunct is trivial.
-/
import proofs.«123385_g51737176048517_cont_8to1_c_1095_3_alg».proof.Defs
import proofs.«123385_g51737176048517_cont_8to1_c_1095_3_alg».proof.Proof.Gen.Kernel
import proofs.«123385_g51737176048517_cont_8to1_c_1095_3_alg».proof.Proof.Gen.Kernel.Skeleton
import proofs.«123385_g51737176048517_cont_8to1_c_1095_3_alg».proof.Proof.Gen.Kernel.Launch
import proofs.«123385_g51737176048517_cont_8to1_c_1095_3_alg».proof.Proof.Gen.Kernel.Points
import proofs.«123385_g51737176048517_cont_8to1_c_1095_3_alg».proof.Proof.Gen.Kernel.Frame
import proofs.«123385_g51737176048517_cont_8to1_c_1095_3_alg».proof.Proof.Gen.KernelIdeal
import proofs.«123385_g51737176048517_cont_8to1_c_1095_3_alg».proof.Proof.Gen.KernelIdeal.Skeleton
import proofs.«123385_g51737176048517_cont_8to1_c_1095_3_alg».proof.Proof.Gen.KernelIdeal.Launch
import proofs.«123385_g51737176048517_cont_8to1_c_1095_3_alg».proof.Proof.Gen.KernelIdeal.Points
import proofs.«123385_g51737176048517_cont_8to1_c_1095_3_alg».proof.Proof.Gen.KernelIdeal.Frame
import proofs.«123385_g51737176048517_cont_8to1_c_1095_3_alg».proof.Proof.Gen.ReferenceIdeal
import proofs.«123385_g51737176048517_cont_8to1_c_1095_3_alg».proof.Proof.Gen.Pre_finite_inputs
import proofs.«123385_g51737176048517_cont_8to1_c_1095_3_alg».proof.Proof.Gen.KernelIdeal.Value
import proofs.«123385_g51737176048517_cont_8to1_c_1095_3_alg».proof.Proof.Gen.ReferenceIdeal.Run
import proofs.«123385_g51737176048517_cont_8to1_c_1095_3_alg».proof.Proof.Gen.ReferenceIdeal.Read
import proofs.«123385_g51737176048517_cont_8to1_c_1095_3_alg».proof.Proof.Affine
import proofs.«123385_g51737176048517_cont_8to1_c_1095_3_alg».proof.Proof.Reference
import proofs.«123385_g51737176048517_cont_8to1_c_1095_3_alg».proof.Proof.Array
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the output at x · w + b of arguments that agree. -/
theorem algebraic : Cert.algebraic_KernelIdeal_ReferenceIdeal := by
  intro m ρ m' ρ' _ hagree
  refine ⟨_, Cert.Dense.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.Dense.reference_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
